-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel

variable [Facts]

def fn {F : FTy → Type} [FloatOps F] (main_arg0 : FVec F S2048x32768 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  main_v3
-- ==== Kernel.lean ====
abbrev S2048x32768 : Shape := ⟨2, ![2048, 32768]⟩
abbrev S2048x63 : Shape := ⟨2, ![2048, 63]⟩
abbrev S128x32768 : Shape := ⟨2, ![128, 32768]⟩
abbrev S128x63 : Shape := ⟨2, ![128, 63]⟩
abbrev S128x1024 : Shape := ⟨2, ![128, 1024]⟩
abbrev S128 : Shape := ⟨1, ![128]⟩
abbrev S128x1 : Shape := ⟨2, ![128, 1]⟩
abbrev S128x32 : Shape := ⟨2, ![128, 32]⟩
abbrev S128x16x2 : Shape := ⟨3, ![128, 16, 2]⟩
abbrev S128x16 : Shape := ⟨2, ![128, 16]⟩
abbrev S128x8x2 : Shape := ⟨3, ![128, 8, 2]⟩
abbrev S128x8 : Shape := ⟨2, ![128, 8]⟩
abbrev S128x4x2 : Shape := ⟨3, ![128, 4, 2]⟩
abbrev S128x4 : Shape := ⟨2, ![128, 4]⟩
abbrev S128x2x2 : Shape := ⟨3, ![128, 2, 2]⟩
abbrev S128x2 : Shape := ⟨2, ![128, 2]⟩
abbrev S128x1x2 : Shape := ⟨3, ![128, 1, 2]⟩

abbrev nBuf : Space → Nat
  | .hbm => 2
  | .vmem => 4
  | .smem => 0
  | _ => 0

abbrev bufTy : (tb : Table) → Fin (tcTables nBuf tb) → BufTy
  | .hbm, ⟨0, _⟩ => ⟨S2048x32768, .f32⟩
  | .hbm, ⟨1, _⟩ => ⟨S2048x63, .f32⟩
  | .local _ .vmem, ⟨0, _⟩ => ⟨S128x32768, .f32⟩
  | .local _ .vmem, ⟨1, _⟩ => ⟨S128x32768, .f32⟩
  | .local _ .vmem, ⟨2, _⟩ => ⟨S128x63, .f32⟩
  | .local _ .vmem, ⟨3, _⟩ => ⟨S128x63, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x32768_S128x1024_0_0 : ∀ a, (![0, 0] : Fin 2 → Nat) a + S128x1024.size a ≤ S128x32768.size a
  h_S128x1024 : 0 < S128x1024.numel
  reduces_S128x1024_S128 : S128x1024.Reduces [1] S128
  shapeCasts_S128_S128x1 : S128.ShapeCasts S128x1
  inb_S128x32768_S128x1024_0_1024 : ∀ a, (![0, 1024] : Fin 2 → Nat) a + S128x1024.size a ≤ S128x32768.size a
  inb_S128x32768_S128x1024_0_2048 : ∀ a, (![0, 2048] : Fin 2 → Nat) a + S128x1024.size a ≤ S128x32768.size a
  inb_S128x32768_S128x1024_0_3072 : ∀ a, (![0, 3072] : Fin 2 → Nat) a + S128x1024.size a ≤ S128x32768.size a
  inb_S128x32768_S128x1024_0_4096 : ∀ a, (![0, 4096] : Fin 2 → Nat) a + S128x1024.size a ≤ S128x32768.size a
  inb_S128x32768_S128x1024_0_5120 : ∀ a, (![0, 5120] : Fin 2 → Nat) a + S128x1024.size a ≤ S128x32768.size a
  inb_S128x32768_S128x1024_0_6144 : ∀ a, (![0, 6144] : Fin 2 → Nat) a + S128x1024.size a ≤ S128x32768.size a
  inb_S128x32768_S128x1024_0_7168 : ∀ a, (![0, 7168] : Fin 2 → Nat) a + S128x1024.size a ≤ S128x32768.size a
  inb_S128x32768_S128x1024_0_8192 : ∀ a, (![0, 8192] : Fin 2 → Nat) a + S128x1024.size a ≤ S128x32768.size a
  inb_S128x32768_S128x1024_0_9216 : ∀ a, (![0, 9216] : Fin 2 → Nat) a + S128x1024.size a ≤ S128x32768.size a
  inb_S128x32768_S128x1024_0_10240 : ∀ a, (![0, 10240] : Fin 2 → Nat) a + S128x1024.size a ≤ S128x32768.size a
  inb_S128x32768_S128x1024_0_11264 : ∀ a, (![0, 11264] : Fin 2 → Nat) a + S128x1024.size a ≤ S128x32768.size a
  inb_S128x32768_S128x1024_0_12288 : ∀ a, (![0, 12288] : Fin 2 → Nat) a + S128x1024.size a ≤ S128x32768.size a
  inb_S128x32768_S128x1024_0_13312 : ∀ a, (![0, 13312] : Fin 2 → Nat) a + S128x1024.size a ≤ S128x32768.size a
  inb_S128x32768_S128x1024_0_14336 : ∀ a, (![0, 14336] : Fin 2 → Nat) a + S128x1024.size a ≤ S128x32768.size a
  inb_S128x32768_S128x1024_0_15360 : ∀ a, (![0, 15360] : Fin 2 → Nat) a + S128x1024.size a ≤ S128x32768.size a
  inb_S128x32768_S128x1024_0_16384 : ∀ a, (![0, 16384] : Fin 2 → Nat) a + S128x1024.size a ≤ S128x32768.size a
  inb_S128x32768_S128x1024_0_17408 : ∀ a, (![0, 17408] : Fin 2 → Nat) a + S128x1024.size a ≤ S128x32768.size a
  inb_S128x32768_S128x1024_0_18432 : ∀ a, (![0, 18432] : Fin 2 → Nat) a + S128x1024.size a ≤ S128x32768.size a
  inb_S128x32768_S128x1024_0_19456 : ∀ a, (![0, 19456] : Fin 2 → Nat) a + S128x1024.size a ≤ S128x32768.size a
  inb_S128x32768_S128x1024_0_20480 : ∀ a, (![0, 20480] : Fin 2 → Nat) a + S128x1024.size a ≤ S128x32768.size a
  inb_S128x32768_S128x1024_0_21504 : ∀ a, (![0, 21504] : Fin 2 → Nat) a + S128x1024.size a ≤ S128x32768.size a
  inb_S128x32768_S128x1024_0_22528 : ∀ a, (![0, 22528] : Fin 2 → Nat) a + S128x1024.size a ≤ S128x32768.size a
  inb_S128x32768_S128x1024_0_23552 : ∀ a, (![0, 23552] : Fin 2 → Nat) a + S128x1024.size a ≤ S128x32768.size a
  inb_S128x32768_S128x1024_0_24576 : ∀ a, (![0, 24576] : Fin 2 → Nat) a + S128x1024.size a ≤ S128x32768.size a
  inb_S128x32768_S128x1024_0_25600 : ∀ a, (![0, 25600] : Fin 2 → Nat) a + S128x1024.size a ≤ S128x32768.size a
  inb_S128x32768_S128x1024_0_26624 : ∀ a, (![0, 26624] : Fin 2 → Nat) a + S128x1024.size a ≤ S128x32768.size a
  inb_S128x32768_S128x1024_0_27648 : ∀ a, (![0, 27648] : Fin 2 → Nat) a + S128x1024.size a ≤ S128x32768.size a
  inb_S128x32768_S128x1024_0_28672 : ∀ a, (![0, 28672] : Fin 2 → Nat) a + S128x1024.size a ≤ S128x32768.size a
  inb_S128x32768_S128x1024_0_29696 : ∀ a, (![0, 29696] : Fin 2 → Nat) a + S128x1024.size a ≤ S128x32768.size a
  inb_S128x32768_S128x1024_0_30720 : ∀ a, (![0, 30720] : Fin 2 → Nat) a + S128x1024.size a ≤ S128x32768.size a
  inb_S128x32768_S128x1024_0_31744 : ∀ a, (![0, 31744] : Fin 2 → Nat) a + S128x1024.size a ≤ S128x32768.size a
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 : Shape.Concatenates [S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1, S128x1] S128x32 1
  shapeCasts_S128x32_S128x16x2 : S128x32.ShapeCasts S128x16x2
  reduces_S128x16x2_S128x16 : S128x16x2.Reduces [2] S128x16
  shapeCasts_S128x16_S128x8x2 : S128x16.ShapeCasts S128x8x2
  reduces_S128x8x2_S128x8 : S128x8x2.Reduces [2] S128x8
  shapeCasts_S128x8_S128x4x2 : S128x8.ShapeCasts S128x4x2
  reduces_S128x4x2_S128x4 : S128x4x2.Reduces [2] S128x4
  shapeCasts_S128x4_S128x2x2 : S128x4.ShapeCasts S128x2x2
  reduces_S128x2x2_S128x2 : S128x2x2.Reduces [2] S128x2
  shapeCasts_S128x2_S128x1x2 : S128x2.ShapeCasts S128x1x2
  reduces_S128x1x2_S128x1 : S128x1x2.Reduces [2] S128x1
  concatenates_S128x1_S128x2_S128x4_S128x8_S128x16_S128x32_S128x63_d1 : Shape.Concatenates [S128x1, S128x2, S128x4, S128x8, S128x16, S128x32] S128x63 1
  inb_S128x63_S128x63_0_0 : ∀ a, (![0, 0] : Fin 2 → Nat) a + S128x63.size a ≤ S128x63.size a
  h_S128x63 : 0 < S128x63.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32768.size a ≤ S2048x32768.size a
  hwx0_0 : ∀ i : grid0.Coords, EltTy.bits .f32 = 32 ∨ (Rect.block (s := S2048x32768) S128x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x63.size a ≤ S2048x63.size a
  hwx0_1 : ∀ i : grid0.Coords, EltTy.bits .f32 = 32 ∨ (Rect.block (s := S2048x63) S128x63.size (cc0_transform_1 i) (hinb0_1 i)).WholeWords (EltTy.packing .f32)

variable [Facts₀]

abbrev win0_0 : Pipeline.Window sig grid0 :=
  Pipeline.Window.ofSpec (Memref.whole main_arg0) S128x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x63.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S_ : Shape := ⟨0, ![]⟩
abbrev S2048 : Shape := ⟨1, ![2048]⟩
abbrev S2048x1 : Shape := ⟨2, ![2048, 1]⟩
abbrev S2048x16384 : Shape := ⟨2, ![2048, 16384]⟩
abbrev S2048x1x16384 : Shape := ⟨3, ![2048, 1, 16384]⟩
abbrev S2048x2 : Shape := ⟨2, ![2048, 2]⟩
abbrev S2048x24576 : Shape := ⟨2, ![2048, 24576]⟩
abbrev S2048x3x8192 : Shape := ⟨3, ![2048, 3, 8192]⟩
abbrev S2048x3 : Shape := ⟨2, ![2048, 3]⟩
abbrev S2048x8192 : Shape := ⟨2, ![2048, 8192]⟩
abbrev S2048x4 : Shape := ⟨2, ![2048, 4]⟩
abbrev S2048x28672 : Shape := ⟨2, ![2048, 28672]⟩
abbrev S2048x7x4096 : Shape := ⟨3, ![2048, 7, 4096]⟩
abbrev S2048x7 : Shape := ⟨2, ![2048, 7]⟩
abbrev S2048x4096 : Shape := ⟨2, ![2048, 4096]⟩
abbrev S2048x8 : Shape := ⟨2, ![2048, 8]⟩
abbrev S2048x30720 : Shape := ⟨2, ![2048, 30720]⟩
abbrev S2048x15x2048 : Shape := ⟨3, ![2048, 15, 2048]⟩
abbrev S2048x15 : Shape := ⟨2, ![2048, 15]⟩
abbrev S2048x2048 : Shape := ⟨2, ![2048, 2048]⟩
abbrev S2048x16 : Shape := ⟨2, ![2048, 16]⟩
abbrev S2048x31744 : Shape := ⟨2, ![2048, 31744]⟩
abbrev S2048x31x1024 : Shape := ⟨3, ![2048, 31, 1024]⟩
abbrev S2048x31 : Shape := ⟨2, ![2048, 31]⟩
abbrev S2048x1024 : Shape := ⟨2, ![2048, 1024]⟩
abbrev S2048x32 : Shape := ⟨2, ![2048, 32]⟩
abbrev S2048x63 : Shape := ⟨2, ![2048, 63]⟩

abbrev nBuf : Space → Nat
  | .hbm => 50
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x16384, .f32⟩
  | .hbm, ⟨5, _⟩ => ⟨S2048x1x16384, .f32⟩
  | .hbm, ⟨6, _⟩ => ⟨S_, .f32⟩
  | .hbm, ⟨7, _⟩ => ⟨S2048x1, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x2, .f32⟩
  | .hbm, ⟨13, _⟩ => ⟨S2048x24576, .f32⟩
  | .hbm, ⟨14, _⟩ => ⟨S2048x3x8192, .f32⟩
  | .hbm, ⟨15, _⟩ => ⟨S_, .f32⟩
  | .hbm, ⟨16, _⟩ => ⟨S2048x3, .f32⟩
  | .hbm, ⟨17, _⟩ => ⟨S2048x8192, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x4, .f32⟩
  | .hbm, ⟨22, _⟩ => ⟨S2048x28672, .f32⟩
  | .hbm, ⟨23, _⟩ => ⟨S2048x7x4096, .f32⟩
  | .hbm, ⟨24, _⟩ => ⟨S_, .f32⟩
  | .hbm, ⟨25, _⟩ => ⟨S2048x7, .f32⟩
  | .hbm, ⟨26, _⟩ => ⟨S2048x4096, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x8, .f32⟩
  | .hbm, ⟨31, _⟩ => ⟨S2048x30720, .f32⟩
  | .hbm, ⟨32, _⟩ => ⟨S2048x15x2048, .f32⟩
  | .hbm, ⟨33, _⟩ => ⟨S_, .f32⟩
  | .hbm, ⟨34, _⟩ => ⟨S2048x15, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x16, .f32⟩
  | .hbm, ⟨40, _⟩ => ⟨S2048x31744, .f32⟩
  | .hbm, ⟨41, _⟩ => ⟨S2048x31x1024, .f32⟩
  | .hbm, ⟨42, _⟩ => ⟨S_, .f32⟩
  | .hbm, ⟨43, _⟩ => ⟨S2048x31, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x32, .f32⟩
  | .hbm, ⟨49, _⟩ => ⟨S2048x63, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S2048x32768_S2048_d1 : S2048x32768.ReducesTo [1] S2048
  h_S_ : 0 < S_.numel
  bcast_S2048_S2048x1_0 : S2048.BroadcastsInDim S2048x1 (![0] : Fin 1 → Fin S2048x1.rank)
  slices_S2048x32768_S2048x16384_0_0 : S2048x32768.Slices ![0, 0] S2048x16384
  shapeCasts_S2048x16384_S2048x1x16384 : S2048x16384.ShapeCasts S2048x1x16384
  reducesTo_S2048x1x16384_S2048x1_d2 : S2048x1x16384.ReducesTo [2] S2048x1
  slices_S2048x32768_S2048x16384_0_16384 : S2048x32768.Slices ![0, 16384] S2048x16384
  reducesTo_S2048x16384_S2048_d1 : S2048x16384.ReducesTo [1] S2048
  concatenates_S2048x1_S2048x1_S2048x2_d1 : Shape.Concatenates [S2048x1, S2048x1] S2048x2 1
  slices_S2048x32768_S2048x24576_0_0 : S2048x32768.Slices ![0, 0] S2048x24576
  shapeCasts_S2048x24576_S2048x3x8192 : S2048x24576.ShapeCasts S2048x3x8192
  reducesTo_S2048x3x8192_S2048x3_d2 : S2048x3x8192.ReducesTo [2] S2048x3
  slices_S2048x32768_S2048x8192_0_24576 : S2048x32768.Slices ![0, 24576] S2048x8192
  reducesTo_S2048x8192_S2048_d1 : S2048x8192.ReducesTo [1] S2048
  concatenates_S2048x3_S2048x1_S2048x4_d1 : Shape.Concatenates [S2048x3, S2048x1] S2048x4 1
  slices_S2048x32768_S2048x28672_0_0 : S2048x32768.Slices ![0, 0] S2048x28672
  shapeCasts_S2048x28672_S2048x7x4096 : S2048x28672.ShapeCasts S2048x7x4096
  reducesTo_S2048x7x4096_S2048x7_d2 : S2048x7x4096.ReducesTo [2] S2048x7
  slices_S2048x32768_S2048x4096_0_28672 : S2048x32768.Slices ![0, 28672] S2048x4096
  reducesTo_S2048x4096_S2048_d1 : S2048x4096.ReducesTo [1] S2048
  concatenates_S2048x7_S2048x1_S2048x8_d1 : Shape.Concatenates [S2048x7, S2048x1] S2048x8 1
  slices_S2048x32768_S2048x30720_0_0 : S2048x32768.Slices ![0, 0] S2048x30720
  shapeCasts_S2048x30720_S2048x15x2048 : S2048x30720.ShapeCasts S2048x15x2048
  reducesTo_S2048x15x2048_S2048x15_d2 : S2048x15x2048.ReducesTo [2] S2048x15
  slices_S2048x32768_S2048x2048_0_30720 : S2048x32768.Slices ![0, 30720] S2048x2048
  reducesTo_S2048x2048_S2048_d1 : S2048x2048.ReducesTo [1] S2048
  concatenates_S2048x15_S2048x1_S2048x16_d1 : Shape.Concatenates [S2048x15, S2048x1] S2048x16 1
  slices_S2048x32768_S2048x31744_0_0 : S2048x32768.Slices ![0, 0] S2048x31744
  shapeCasts_S2048x31744_S2048x31x1024 : S2048x31744.ShapeCasts S2048x31x1024
  reducesTo_S2048x31x1024_S2048x31_d2 : S2048x31x1024.ReducesTo [2] S2048x31
  slices_S2048x32768_S2048x1024_0_31744 : S2048x32768.Slices ![0, 31744] S2048x1024
  reducesTo_S2048x1024_S2048_d1 : S2048x1024.ReducesTo [1] S2048
  concatenates_S2048x31_S2048x1_S2048x32_d1 : Shape.Concatenates [S2048x31, S2048x1] S2048x32 1
  concatenates_S2048x1_S2048x2_S2048x4_S2048x8_S2048x16_S2048x32_S2048x63_d1 : Shape.Concatenates [S2048x1, S2048x2, S2048x4, S2048x8, S2048x16, S2048x32] S2048x63 1

variable [Facts₀]

class Facts : Prop extends Facts₀ where

variable [Facts]
-- ==== Proof.MaxLaws.lean ====
/-
  Maxima over column ranges of a row, on the extended reals.

  Every value the two programs compute is the maximum of one row of the input over a range of columns `[lo, hi)`.
  A maximum is carried here by its universal property: `v` is the maximum of the row over `[lo, hi)` exactly when,
  for every `c`, `v ≤ c` iff every entry of the row on those columns is `≤ c` (`Bounds`). Two values with the same
  upper bounds are equal, so no order of folding, no grouping and no tiling ever has to be compared: a maximum of
  two adjacent ranges' maxima bounds exactly what the union's maximum bounds (`Bounds.split`). The bottom element
  `-∞` (the pattern `0xFF800000`) bounds nothing and is the identity of `max`, which is why a fold that starts from
  it says nothing more than its entries do. No finiteness of the entries is used anywhere.

  Then the two reductions the programs are written with, read at an index at the exact instance: a
  `multi_reduction <maximumf>` over one axis from the splat of `-∞`, and a host `reduce` with a `maximum` body over
  one axis from the constant `-∞`; each is `≤ c` iff every entry along the reduced axis is.
-/
import Idealize.ShloMosaic.PureOps.Ideal.Laws
import Idealize.ShloMosaic.Lib.ValueIdx

noncomputable section

namespace Cert.MaxLaws

open Idealize.ShloMosaic Idealize.ShloMosaic.ValueIdx

/-! ## Upper bounds of a row on a range of columns -/

/-- `c` bounds row `r` of `x` on the columns `lo ≤ w < hi`. -/
def Bounds {R W : ℕ} (x : (⟨2, ![R, W]⟩ : Shape).Idx → EReal) (r : Fin R) (lo hi : ℕ) (c : EReal) : Prop :=
  ∀ w : Fin W, lo ≤ w.val → w.val < hi → x (ix2 r w) ≤ c

/-- Bounding two adjacent ranges is bounding their union. -/
theorem Bounds.split {R W : ℕ} (x : (⟨2, ![R, W]⟩ : Shape).Idx → EReal) (r : Fin R) (lo mid hi : ℕ) (c : EReal)
    (h1 : lo ≤ mid) (h2 : mid ≤ hi) :
    (Bounds x r lo mid c ∧ Bounds x r mid hi c) ↔ Bounds x r lo hi c := by
  constructor
  · rintro ⟨ha, hb⟩ w hlo hhi
    by_cases hw : w.val < mid
    · exact ha w hlo hw
    · exact hb w (by omega) hhi
  · intro h
    exact ⟨fun w hlo hhi => h w hlo (by omega), fun w hlo hhi => h w (by omega) hhi⟩

/-- The same ranges spelt differently bound the same. -/
theorem Bounds.congr {R W : ℕ} (x : (⟨2, ![R, W]⟩ : Shape).Idx → EReal) (r : Fin R) {lo hi lo' hi' : ℕ} (c : EReal)
    (h1 : lo = lo') (h2 : hi = hi') : Bounds x r lo hi c ↔ Bounds x r lo' hi' c := by
  subst h1; subst h2; exact Iff.rfl

/-- The maximum of row `r` of `x` over the columns `lo ≤ w < hi` (`-∞` over an empty range). -/
def rangeMax {R W : ℕ} (x : (⟨2, ![R, W]⟩ : Shape).Idx → EReal) (r : Fin R) (lo hi : ℕ) : EReal :=
  (Finset.univ.filter fun w : Fin W => lo ≤ w.val ∧ w.val < hi).sup fun w => x (ix2 r w)

/-- Its universal property. -/
theorem rangeMax_le_iff {R W : ℕ} (x : (⟨2, ![R, W]⟩ : Shape).Idx → EReal) (r : Fin R) (lo hi : ℕ) (c : EReal) :
    rangeMax x r lo hi ≤ c ↔ Bounds x r lo hi c := by
  unfold rangeMax Bounds
  rw [Finset.sup_le_iff]
  constructor
  · intro h w hlo hhi
    exact h w (Finset.mem_filter.2 ⟨Finset.mem_univ _, hlo, hhi⟩)
  · intro h w hw
    obtain ⟨_, hlo, hhi⟩ := Finset.mem_filter.1 hw
    exact h w hlo hhi

/-- A value with the range's upper bounds is the range's maximum. -/
theorem eq_rangeMax {R W : ℕ} (x : (⟨2, ![R, W]⟩ : Shape).Idx → EReal) (r : Fin R) (lo hi : ℕ) (v : EReal)
    (h : ∀ c, v ≤ c ↔ Bounds x r lo hi c) : v = rangeMax x r lo hi :=
  eq_of_forall_ge_iff fun c => (h c).trans (rangeMax_le_iff x r lo hi c).symm

/-! ## Folds of `max` from `-∞` -/

/-- The f32 pattern `0xFF800000` is `-∞`, the bottom of the extended reals. -/
theorem negInf : Ideal.ofBits .f32 0xFF800000#32 = (⊥ : EReal) := by
  simp [Ideal.ofBits, Ideal.ieee]

/-- A fold of `max` from `-∞` over a whole finite family is `≤ c` iff every member is. -/
theorem fold_max_bot_le_iff {n : ℕ} (f : Fin n → EReal) (c : EReal) :
    (Finset.univ : Finset (Fin n)).fold max ⊥ f ≤ c ↔ ∀ k, f k ≤ c := by
  rw [Finset.fold_max_le]
  simp

/-! ## The two reductions at an index -/

/-- A `multi_reduction <maximumf>` over ONE axis from the splat of `-∞`, at the exact instance: at a result index it
    is `≤ c` iff every entry of the source along the reduced axis is. -/
theorem multiReduction_max_le_iff {s t : Shape} {a : Fin s.rank} (src : FVec Ideal s .f32)
    (h : s.Reduces [a] t) (hφ : FKind.Formats .f32)
    (hacc : (0xFF800000#32 : BitVec FTy.f32.bits) = FKind.maximumf.neutral .f32 hφ) (j : t.Idx) (c : EReal) :
    multiReduction .maximumf [a] t src 0xFF800000#32 h hφ hacc j ≤ c ↔ ∀ k : Fin (s.size a), src (h.lift j k) ≤ c := by
  rw [Ideal.multiReduction_maximumf_single]
  show (Finset.univ : Finset (Fin (s.size a))).fold max (Ideal.ofBits .f32 0xFF800000#32) (src ∘ h.lift j) ≤ c ↔ _
  rw [negInf, fold_max_bot_le_iff]
  exact Iff.rfl

/-- A host `reduce` with a `maximum` body over ONE axis from the constant `-∞`, at the exact instance: the same. -/
theorem hostReduce_max_le_iff {s t u : Shape} {a : Fin s.rank} (x : s.Idx → Ideal .f32)
    (h' : s.ReducesTo [a] t) (h : s.Reduces [a] t) (hu : 0 < u.numel) (j : t.Idx) (c : EReal) :
    Host.reduce (FloatOps.maximumf (F := Ideal) (φ := .f32)) x (constant (F := Ideal) u .f32 0xFF800000#32) h' hu j ≤ c
      ↔ ∀ k : Fin (s.size a), x (h.lift j k) ≤ c := by
  rw [Host.reduce_eq_fold_single (FloatOps.maximumf (F := Ideal) (φ := .f32)) x _ h' h hu j]
  show (Finset.univ : Finset (Fin (s.size a))).fold max (Ideal.ofBits .f32 0xFF800000#32) (x ∘ h.lift j) ≤ c ↔ _
  rw [negInf, fold_max_bot_le_iff]
  exact Iff.rfl

end Cert.MaxLaws

end
-- ==== Proof.Levels.lean ====
/-
  The pooling pyramid, level by level, at an index.

  A LEVEL of width `wd` over an array `x` of rows is an array `u` whose entry `(r, q)` is the maximum of row `r` of `x`
  over the `q`-th bin of `wd` columns, `[q·wd, q·wd + wd)` — said through upper bounds (`IsLevel`). Three ways a level
  arises: a bin's maximum taken directly off a window of columns (`chunkMax_le_iff`, a slice at a column offset
  reduced along its columns); the pairwise maximum of a finer level, entries `2q` and `2q+1` (`pairMax_le_iff`,
  `IsLevel.pair`: two adjacent bins of width `wd` are one bin of width `2·wd`); and, on the host, a bin's maximum
  taken off a reshaped slice (in the module that reads the reference). Six levels of 1, 2, 4, 8, 16 and 32 bins
  laid side by side are the result: column `j` of the 63 belongs to the level with `2^ℓ` bins, `2^ℓ - 1 ≤ j < 2^(ℓ+1) - 1`,
  and is its bin `j - (2^ℓ - 1)` (`concat6_apply`, `pyramid`, `concat6_eq_pyramid`).
-/
import proofs.«142763_j23235773071814_1_alg».proof.Proof.MaxLaws
import Idealize.ShloMosaic.Lib.Pipeline.Value
import Idealize.ShloMosaic.Lib.Pipeline.FrameBody

noncomputable section

namespace Cert.Levels

open Idealize.ShloMosaic Idealize.ShloMosaic.ValueIdx Cert.MaxLaws

/-- `u` is the level of bin width `wd` over `x`: entry `(r, q)` has the upper bounds of row `r` on `[q·wd, q·wd + wd)`. -/
def IsLevel {R W p : ℕ} (x : (⟨2, ![R, W]⟩ : Shape).Idx → EReal) (u : (⟨2, ![R, p]⟩ : Shape).Idx → EReal) (wd : ℕ) : Prop :=
  ∀ (r : Fin R) (q : Fin p) (c : EReal), u (ix2 r q) ≤ c ↔ Bounds x r (q.val * wd) (q.val * wd + wd) c

/-! ## A bin's maximum off a window of columns -/

/-- The maximum along the columns of the window of `w` columns at column offset `o`, kept as a column: at `(r, 0)` it
    has the upper bounds of row `r` on `[o, o + w)`. -/
theorem chunkMax_le_iff {R W w : ℕ} (xb : (⟨2, ![R, W]⟩ : Shape).Idx → EReal) (o : ℕ)
    (inb : ∀ a, (![0, o] : Fin 2 → ℕ) a + (⟨2, ![R, w]⟩ : Shape).size a ≤ (⟨2, ![R, W]⟩ : Shape).size a)
    (hred : (⟨2, ![R, w]⟩ : Shape).Reduces [1] ⟨1, ![R]⟩) (hφ : FKind.Formats .f32)
    (hacc : (0xFF800000#32 : BitVec FTy.f32.bits) = FKind.maximumf.neutral .f32 hφ)
    (hsc : (⟨1, ![R]⟩ : Shape).ShapeCasts ⟨2, ![R, 1]⟩) (r : Fin R) (z : Fin 1) (c : EReal) :
    shapeCast ⟨2, ![R, 1]⟩ (multiReduction (F := Ideal) .maximumf [1] ⟨1, ![R]⟩
        (View.ld (Val := Elt Ideal) (e' := .f32) xb (Rect.unit (s := ⟨2, ![R, W]⟩) ![0, o] (⟨2, ![R, w]⟩ : Shape).size inb) :
          FVec Ideal ⟨2, ![R, w]⟩ .f32)
        0xFF800000#32 hred hφ hacc) hsc (ix2 r z) ≤ c
      ↔ Bounds xb r o (o + w) c := by
  have hz : z.val = 0 := by have := z.isLt; omega
  rw [shapeCast_apply _ hsc (ix2 r z) (ix1 r) (by
    rw [Shape.rowMajor_val_one, Shape.rowMajor_val_two]
    show r.val = r.val * 1 + z.val
    omega)]
  rw [multiReduction_max_le_iff]
  unfold Bounds
  constructor
  · intro h wc hlo hhi
    have hk : wc.val - o < w := by omega
    have e := h ⟨wc.val - o, hk⟩
    refine le_of_eq_of_le (congrArg xb (funext fun a => Fin.ext ?_)) e
    match a with
    | ⟨0, _⟩ => show r.val = 0 + 1 * r.val; omega
    | ⟨1, _⟩ => show wc.val = o + 1 * (wc.val - o); omega
  · intro h k
    have hb := inb 1
    have hk : o + k.val < W := by
      have := k.isLt
      have e1 : (![0, o] : Fin 2 → ℕ) 1 = o := rfl
      have e2 : (⟨2, ![R, w]⟩ : Shape).size 1 = w := rfl
      have e3 : (⟨2, ![R, W]⟩ : Shape).size 1 = W := rfl
      have e4 : (⟨2, ![R, w]⟩ : Shape).size 1 = w := rfl
      rw [e1, e2, e3] at hb
      change k.val < w at this
      omega
    have e := h ⟨o + k.val, hk⟩ (by show o ≤ o + k.val; omega) (by
      have := k.isLt; change k.val < w at this; show o + k.val < o + w; omega)
    refine le_of_eq_of_le (congrArg xb (funext fun a => Fin.ext ?_)) e
    match a with
    | ⟨0, _⟩ => show 0 + 1 * r.val = r.val; omega
    | ⟨1, _⟩ => show o + 1 * k.val = o + k.val; omega

/-! ## The pairwise maximum of a level -/

/-- An array of `m = 2n` columns recast as `n` pairs and reduced over the pair: at `(r, q)` it is `≤ c` iff entries
    `2q` and `2q + 1` of row `r` both are. -/
theorem pairMax_le_iff {R n m : ℕ} (hm : m = 2 * n) (v : (⟨2, ![R, m]⟩ : Shape).Idx → EReal)
    (hsc : (⟨2, ![R, m]⟩ : Shape).ShapeCasts ⟨3, ![R, n, 2]⟩)
    (hred : (⟨3, ![R, n, 2]⟩ : Shape).Reduces [2] ⟨2, ![R, n]⟩) (hφ : FKind.Formats .f32)
    (hacc : (0xFF800000#32 : BitVec FTy.f32.bits) = FKind.maximumf.neutral .f32 hφ)
    (r : Fin R) (q : Fin n) (c : EReal) :
    multiReduction (F := Ideal) .maximumf [2] ⟨2, ![R, n]⟩ (shapeCast ⟨3, ![R, n, 2]⟩ v hsc : FVec Ideal ⟨3, ![R, n, 2]⟩ .f32)
        0xFF800000#32 hred hφ hacc (ix2 r q) ≤ c
      ↔ v (ix2 r ⟨2 * q.val, by have := q.isLt; omega⟩) ≤ c ∧ v (ix2 r ⟨2 * q.val + 1, by have := q.isLt; omega⟩) ≤ c := by
  rw [multiReduction_max_le_iff]
  have key : ∀ (kk : ℕ) (hkk : kk < 2),
      shapeCast ⟨3, ![R, n, 2]⟩ v hsc (hred.lift (ix2 r q) ⟨kk, hkk⟩) = v (ix2 r ⟨2 * q.val + kk, by have := q.isLt; omega⟩) := by
    intro kk hkk
    refine shapeCast_apply v hsc _ _ ?_
    rw [Shape.rowMajor_val_two, Shape.rowMajor_val_three]
    show r.val * m + (2 * q.val + kk) = (r.val * n + q.val) * 2 + kk
    subst hm
    ring
  constructor
  · intro h
    exact ⟨le_of_eq_of_le (key 0 (by omega)).symm (h ⟨0, by show 0 < 2; omega⟩),
      le_of_eq_of_le (key 1 (by omega)).symm (h ⟨1, by show 1 < 2; omega⟩)⟩
  · rintro ⟨h0, h1⟩ k
    have hk2 : k.val < 2 := k.isLt
    obtain ⟨kk, hkk⟩ := k
    change kk < 2 at hk2
    interval_cases kk
    · exact le_of_eq_of_le (key 0 (by omega)) h0
    · exact le_of_eq_of_le (key 1 (by omega)) h1

/-- The pairwise maximum of the level of width `wd` is the level of width `2·wd`: bins `2q` and `2q+1` of width `wd`
    are adjacent, and their union is bin `q` of width `2·wd`. -/
theorem IsLevel.pair {R W n m : ℕ} (hm : m = 2 * n) (x : (⟨2, ![R, W]⟩ : Shape).Idx → EReal)
    (v : (⟨2, ![R, m]⟩ : Shape).Idx → EReal) (wd : ℕ) (hv : IsLevel x v wd)
    (hsc : (⟨2, ![R, m]⟩ : Shape).ShapeCasts ⟨3, ![R, n, 2]⟩)
    (hred : (⟨3, ![R, n, 2]⟩ : Shape).Reduces [2] ⟨2, ![R, n]⟩) (hφ : FKind.Formats .f32)
    (hacc : (0xFF800000#32 : BitVec FTy.f32.bits) = FKind.maximumf.neutral .f32 hφ) :
    IsLevel x (multiReduction (F := Ideal) .maximumf [2] ⟨2, ![R, n]⟩
      (shapeCast ⟨3, ![R, n, 2]⟩ v hsc : FVec Ideal ⟨3, ![R, n, 2]⟩ .f32) 0xFF800000#32 hred hφ hacc) (2 * wd) := by
  intro r q c
  rw [pairMax_le_iff hm v hsc hred hφ hacc r q c, hv r _ c, hv r _ c]
  show Bounds x r (2 * q.val * wd) (2 * q.val * wd + wd) c ∧ Bounds x r ((2 * q.val + 1) * wd) ((2 * q.val + 1) * wd + wd) c ↔ _
  rw [Bounds.congr x r c (show (2 * q.val + 1) * wd = 2 * q.val * wd + wd by ring)
    (show (2 * q.val + 1) * wd + wd = q.val * (2 * wd) + 2 * wd by ring)]
  rw [Bounds.split x r _ _ _ c (Nat.le_add_right _ _) (by
    show 2 * q.val * wd + wd ≤ q.val * (2 * wd) + 2 * wd
    have : 2 * q.val * wd = q.val * (2 * wd) := by ring
    omega)]
  exact Bounds.congr x r c (by ring) rfl

end Cert.Levels

end
-- ==== Proof.Pyramid.lean ====
/-
  The result as ONE function of the input: the pyramid of bin maxima.

  Column `j` of the 63 result columns belongs to the level of `2^ℓ` bins with `2^ℓ - 1 ≤ j < 2^(ℓ+1) - 1` (the offsets
  0, 1, 3, 7, 15, 31 are the sizes of the coarser levels laid before it), it is that level's bin `j - (2^ℓ - 1)`, and a
  bin of the level of `2^ℓ` bins is `32768 / 2^ℓ` columns wide. So entry `(r, j)` is the maximum of row `r` over
  `[binLo j, binLo j + binWd j)` (`pyramid`). Six arrays that are the six levels, laid side by side along the columns,
  are the pyramid (`concat6_eq_pyramid`): a concatenation read at column `j` is the piece that column falls in, read
  at `j` less the widths of the pieces before it (`concat6_apply`). A row's bin maxima depend on that row only, so
  the pyramid of a block of rows is the block of the pyramid (`pyramid_rows`).
-/
import proofs.«142763_j23235773071814_1_alg».proof.Proof.Levels

noncomputable section

namespace Cert.Pyramid

open Idealize.ShloMosaic Idealize.ShloMosaic.ValueIdx Cert.MaxLaws Cert.Levels

/-! ## Six pieces of widths 1, 2, 4, 8, 16, 32 side by side -/

section Concat6
variable {α : Type} {R : ℕ}
  (u0 : (⟨2, ![R, 1]⟩ : Shape).Idx → α) (u1 : (⟨2, ![R, 2]⟩ : Shape).Idx → α) (u2 : (⟨2, ![R, 4]⟩ : Shape).Idx → α)
  (u3 : (⟨2, ![R, 8]⟩ : Shape).Idx → α) (u4 : (⟨2, ![R, 16]⟩ : Shape).Idx → α) (u5 : (⟨2, ![R, 32]⟩ : Shape).Idx → α)
  (h : Shape.Concatenates [(⟨2, ![R, 1]⟩ : Shape), ⟨2, ![R, 2]⟩, ⟨2, ![R, 4]⟩, ⟨2, ![R, 8]⟩, ⟨2, ![R, 16]⟩, ⟨2, ![R, 32]⟩]
    ⟨2, ![R, 63]⟩ 1)

/-- The six pieces, each with its shape, in order. -/
abbrev pieces : List ((s : Shape) × (s.Idx → α)) := [⟨_, u0⟩, ⟨_, u1⟩, ⟨_, u2⟩, ⟨_, u3⟩, ⟨_, u4⟩, ⟨_, u5⟩]

/-- The concatenation at `(r, j)`: the piece `j` falls in, at `j` less the widths before it. -/
theorem concat6_apply (r : Fin R) (j : Fin 63) :
    concatenate ⟨2, ![R, 63]⟩ 1 (pieces u0 u1 u2 u3 u4 u5) h (ix2 r j)
      = if h0 : j.val < 1 then u0 (ix2 r ⟨j.val, h0⟩)
        else if h1 : j.val < 3 then u1 (ix2 r ⟨j.val - 1, by omega⟩)
        else if h2 : j.val < 7 then u2 (ix2 r ⟨j.val - 3, by omega⟩)
        else if h3 : j.val < 15 then u3 (ix2 r ⟨j.val - 7, by omega⟩)
        else if h4 : j.val < 31 then u4 (ix2 r ⟨j.val - 15, by omega⟩)
        else u5 (ix2 r ⟨j.val - 31, by have := j.isLt; omega⟩) := by
  have hoff : ∀ {n : ℕ} (k : Fin n) (b : Fin 2), b.cast (rfl : (2 : ℕ) = 2) ≠ (1 : Fin 2) →
      ((ix2 r k : (⟨2, ![R, n]⟩ : Shape).Idx) b).val = ((ix2 r j : (⟨2, ![R, 63]⟩ : Shape).Idx) (b.cast rfl)).val := by
    intro n k b hb
    match b with
    | ⟨0, _⟩ => rfl
    | ⟨1, _⟩ => exact absurd rfl hb
  split
  · next h0 =>
    exact concatenate_apply_piece 1 (pieces u0 u1 u2 u3 u4 u5) h (ix2 r j) 0 (by show (0 : ℕ) < 6; omega) _ u0 rfl rfl 0 rfl (ix2 r ⟨j.val, h0⟩) (hoff _)
      (by show 0 + j.val = j.val; omega)
  · split
    · next h0 h1 =>
      exact concatenate_apply_piece 1 (pieces u0 u1 u2 u3 u4 u5) h (ix2 r j) 1 (by show (1 : ℕ) < 6; omega) _ u1 rfl rfl 1 rfl (ix2 r ⟨j.val - 1, by omega⟩) (hoff _)
        (by show 1 + (j.val - 1) = j.val; omega)
    · split
      · next h0 h1 h2 =>
        exact concatenate_apply_piece 1 (pieces u0 u1 u2 u3 u4 u5) h (ix2 r j) 2 (by show (2 : ℕ) < 6; omega) _ u2 rfl rfl 3 rfl (ix2 r ⟨j.val - 3, by omega⟩) (hoff _)
          (by show 3 + (j.val - 3) = j.val; omega)
      · split
        · next h0 h1 h2 h3 =>
          exact concatenate_apply_piece 1 (pieces u0 u1 u2 u3 u4 u5) h (ix2 r j) 3 (by show (3 : ℕ) < 6; omega) _ u3 rfl rfl 7 rfl (ix2 r ⟨j.val - 7, by omega⟩) (hoff _)
            (by show 7 + (j.val - 7) = j.val; omega)
        · split
          · next h0 h1 h2 h3 h4 =>
            exact concatenate_apply_piece 1 (pieces u0 u1 u2 u3 u4 u5) h (ix2 r j) 4 (by show (4 : ℕ) < 6; omega) _ u4 rfl rfl 15 rfl (ix2 r ⟨j.val - 15, by omega⟩)
              (hoff _) (by show 15 + (j.val - 15) = j.val; omega)
          · next h0 h1 h2 h3 h4 =>
            exact concatenate_apply_piece 1 (pieces u0 u1 u2 u3 u4 u5) h (ix2 r j) 5 (by show (5 : ℕ) < 6; omega) _ u5 rfl rfl 31 rfl
              (ix2 r ⟨j.val - 31, by have := j.isLt; omega⟩) (hoff _) (by show 31 + (j.val - 31) = j.val; omega)

end Concat6

/-! ## The pyramid -/

/-- The first column of the bin that result column `j` holds the maximum of. -/
def binLo (j : ℕ) : ℕ :=
  if j < 1 then 0 else if j < 3 then (j - 1) * 16384 else if j < 7 then (j - 3) * 8192
  else if j < 15 then (j - 7) * 4096 else if j < 31 then (j - 15) * 2048 else (j - 31) * 1024

/-- That bin's width. -/
def binWd (j : ℕ) : ℕ :=
  if j < 1 then 32768 else if j < 3 then 16384 else if j < 7 then 8192
  else if j < 15 then 4096 else if j < 31 then 2048 else 1024

/-- THE RESULT: entry `(r, j)` is the maximum of row `r` of `x` over the bin of column `j`. -/
def pyramid {R : ℕ} (x : (⟨2, ![R, 32768]⟩ : Shape).Idx → EReal) : (⟨2, ![R, 63]⟩ : Shape).Idx → EReal :=
  fun i => rangeMax x (i 0) (binLo (i 1).val) (binLo (i 1).val + binWd (i 1).val)

theorem pyramid_apply {R : ℕ} (x : (⟨2, ![R, 32768]⟩ : Shape).Idx → EReal) (r : Fin R) (j : Fin 63) :
    pyramid x (ix2 r j) = rangeMax x r (binLo j.val) (binLo j.val + binWd j.val) := rfl

/-- Six levels side by side are the pyramid. -/
theorem concat6_eq_pyramid {R : ℕ} (x : (⟨2, ![R, 32768]⟩ : Shape).Idx → EReal)
    (u0 : (⟨2, ![R, 1]⟩ : Shape).Idx → EReal) (u1 : (⟨2, ![R, 2]⟩ : Shape).Idx → EReal)
    (u2 : (⟨2, ![R, 4]⟩ : Shape).Idx → EReal) (u3 : (⟨2, ![R, 8]⟩ : Shape).Idx → EReal)
    (u4 : (⟨2, ![R, 16]⟩ : Shape).Idx → EReal) (u5 : (⟨2, ![R, 32]⟩ : Shape).Idx → EReal)
    (h : Shape.Concatenates [(⟨2, ![R, 1]⟩ : Shape), ⟨2, ![R, 2]⟩, ⟨2, ![R, 4]⟩, ⟨2, ![R, 8]⟩, ⟨2, ![R, 16]⟩, ⟨2, ![R, 32]⟩]
      ⟨2, ![R, 63]⟩ 1)
    (h0 : IsLevel x u0 32768) (h1 : IsLevel x u1 16384) (h2 : IsLevel x u2 8192) (h3 : IsLevel x u3 4096)
    (h4 : IsLevel x u4 2048) (h5 : IsLevel x u5 1024) :
    concatenate ⟨2, ![R, 63]⟩ 1 (pieces u0 u1 u2 u3 u4 u5) h = pyramid x := by
  funext i
  obtain ⟨r, j, rfl⟩ : ∃ (r : Fin R) (j : Fin 63), i = ix2 r j := ⟨i 0, i 1, eq_ix2 i⟩
  rw [concat6_apply, pyramid_apply]
  refine eq_rangeMax x r _ _ _ (fun c => ?_)
  have hj := j.isLt
  split
  · next c0 =>
    rw [h0 r _ c]
    exact Bounds.congr x r c (by show j.val * 32768 = binLo j.val; unfold binLo; split_ifs <;> omega)
      (by show j.val * 32768 + 32768 = binLo j.val + binWd j.val; unfold binLo binWd; split_ifs <;> omega)
  · split
    · next c0 c1 =>
      rw [h1 r _ c]
      exact Bounds.congr x r c (by show (j.val - 1) * 16384 = binLo j.val; unfold binLo; split_ifs <;> omega)
        (by show (j.val - 1) * 16384 + 16384 = binLo j.val + binWd j.val; unfold binLo binWd; split_ifs <;> omega)
    · split
      · next c0 c1 c2 =>
        rw [h2 r _ c]
        exact Bounds.congr x r c (by show (j.val - 3) * 8192 = binLo j.val; unfold binLo; split_ifs <;> omega)
          (by show (j.val - 3) * 8192 + 8192 = binLo j.val + binWd j.val; unfold binLo binWd; split_ifs <;> omega)
      · split
        · next c0 c1 c2 c3 =>
          rw [h3 r _ c]
          exact Bounds.congr x r c (by show (j.val - 7) * 4096 = binLo j.val; unfold binLo; split_ifs <;> omega)
            (by show (j.val - 7) * 4096 + 4096 = binLo j.val + binWd j.val; unfold binLo binWd; split_ifs <;> omega)
        · split
          · next c0 c1 c2 c3 c4 =>
            rw [h4 r _ c]
            exact Bounds.congr x r c (by show (j.val - 15) * 2048 = binLo j.val; unfold binLo; split_ifs <;> omega)
              (by show (j.val - 15) * 2048 + 2048 = binLo j.val + binWd j.val; unfold binLo binWd; split_ifs <;> omega)
          · next c0 c1 c2 c3 c4 =>
            rw [h5 r _ c]
            exact Bounds.congr x r c (by show (j.val - 31) * 1024 = binLo j.val; unfold binLo; split_ifs <;> omega)
              (by show (j.val - 31) * 1024 + 1024 = binLo j.val + binWd j.val; unfold binLo binWd; split_ifs <;> omega)

/-- A row's bin maxima depend on that row only: if row `r` of `xb` is row `r'` of `x`, the pyramids agree there. -/
theorem pyramid_rows {R R' : ℕ} (xb : (⟨2, ![R, 32768]⟩ : Shape).Idx → EReal) (x : (⟨2, ![R', 32768]⟩ : Shape).Idx → EReal)
    (r : Fin R) (r' : Fin R') (hrow : ∀ w : Fin 32768, xb (ix2 r w) = x (ix2 r' w)) (j : Fin 63) :
    pyramid xb (ix2 r j) = pyramid x (ix2 r' j) := by
  rw [pyramid_apply, pyramid_apply]
  unfold rangeMax
  exact Finset.sup_congr rfl (fun w _ => hrow w)

end Cert.Pyramid

end
-- ==== Proof.KernelBody.lean ====
/-
  What the kernel's body leaves in its output block, as a function of its input block.

  The body reads its block of 128 rows in 32 windows of 1024 columns, takes each window's row maxima (the finest
  level: 32 bins of width 1024), builds five coarser levels by the pairwise maximum of the level before (bins of
  width 2048, 4096, 8192, 16384 and the whole row), and stores the six levels side by side, coarsest first. So the
  block it stores is the pyramid of bin maxima of its input block (`out_eq_pyramid`): the finest level is a level by
  the window lemma (`b32_level`: the 32 columns of the concatenation are the 32 windows' maxima, column `q` the
  window at column offset `1024·q`), each coarser one by the pairing lemma, and six levels side by side are the
  pyramid. The only law used is that the maximum over a union of two adjacent bins is the maximum of their maxima,
  with `-∞` the identity; it holds at every extended real, so the finiteness of the input is not used.
-/
import proofs.«142763_j23235773071814_1_alg».proof.Proof.Gen.KernelIdeal.Frame
import proofs.«142763_j23235773071814_1_alg».proof.Proof.Pyramid

noncomputable section

namespace Cert.KernelIdeal.Body

open Cert.KernelIdeal Cert.KernelIdeal.Gen Idealize.ShloMosaic Idealize.ShloMosaic.ValueIdx
open Cert.MaxLaws Cert.Levels Cert.Pyramid

theorem hz : (![0, 0] : Fin 2 → Nat) = fun _ => 0 := funext fun a => by fin_cases a <;> rfl

/-- Window `q` of 1024 columns, at column offset `1024·q`, lies inside the block. -/
theorem inbq (q : Fin 32) : ∀ a, (![0, q.val * 1024] : Fin 2 → ℕ) a + S128x1024.size a ≤ S128x32768.size a := fun a =>
  match a with
  | ⟨0, _⟩ => by show 0 + 128 ≤ 128; omega
  | ⟨1, _⟩ => by show q.val * 1024 + 1024 ≤ 32768; have := q.isLt; omega

/-- The row maxima of window `q` of the block, as a column. -/
def chunk (xb : Vec Ideal S128x32768 .f32) (q : Fin 32) : FVec Ideal S128x1 .f32 :=
  shapeCast S128x1 (multiReduction .maximumf [1] S128
    (View.ld xb (Rect.unit (s := S128x32768) ![0, q.val * 1024] S128x1024.size (inbq q)) : Vec Ideal S128x1024 .f32)
    0xFF800000#32 reduces_S128x1024_S128 (.inl rfl) rfl) shapeCasts_S128_S128x1

/-- It bounds what row `r` bounds on the columns `[1024·q, 1024·q + 1024)`. -/
theorem chunk_le_iff (xb : Vec Ideal S128x32768 .f32) (q : Fin 32) (r : Fin 128) (z : Fin 1) (c : EReal) :
    chunk xb q (ix2 r z) ≤ c ↔ Bounds xb r (q.val * 1024) (q.val * 1024 + 1024) c :=
  chunkMax_le_iff (R := 128) (W := 32768) (w := 1024) xb (q.val * 1024) (inbq q) reduces_S128x1024_S128 (.inl rfl) rfl
    shapeCasts_S128_S128x1 r z c

/-- The finest level as the body computes it — 32 loads at the literal column offsets 0, 1024, …, 31744, each reduced
    along its columns — is the 32 windows' maxima side by side: the literal offsets are `1024·q`. -/
theorem b32_eq (xb : Vec Ideal S128x32768 .f32) :
    k0_pay1 (k0_pay3 (View.ld xb r0_0)) (k0_pay4 (View.ld xb r0_1)) (k0_pay5 (View.ld xb r0_2)) (k0_pay6 (View.ld xb r0_3)) (k0_pay7 (View.ld xb r0_4)) (k0_pay8 (View.ld xb r0_5)) (k0_pay9 (View.ld xb r0_6)) (k0_pay10 (View.ld xb r0_7)) (k0_pay11 (View.ld xb r0_8)) (k0_pay13 (k0_pay12 (View.ld xb r0_9))) (k0_pay14 (View.ld xb r0_10)) (k0_pay15 (View.ld xb r0_11)) (k0_pay16 (View.ld xb r0_12)) (k0_pay17 (View.ld xb r0_13)) (k0_pay18 (View.ld xb r0_14)) (k0_pay19 (View.ld xb r0_15)) (k0_pay20 (View.ld xb r0_16)) (k0_pay21 (View.ld xb r0_17)) (k0_pay22 (View.ld xb r0_18)) (k0_pay24 (k0_pay23 (View.ld xb r0_19))) (k0_pay25 (View.ld xb r0_20)) (k0_pay26 (View.ld xb r0_21)) (k0_pay27 (View.ld xb r0_22)) (k0_pay28 (View.ld xb r0_23)) (k0_pay29 (View.ld xb r0_24)) (k0_pay30 (View.ld xb r0_25)) (k0_pay31 (View.ld xb r0_26)) (k0_pay32 (View.ld xb r0_27)) (k0_pay33 (View.ld xb r0_28)) (k0_pay34 (View.ld xb r0_29)) (View.ld xb r0_30) (View.ld xb r0_31)
      = concatenate S128x32 1 (List.ofFn fun q : Fin 32 => (⟨S128x1, chunk xb q⟩ : (s : Shape) × (s.Idx → Ideal .f32)))
          concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 := rfl

/-- The finest level is the level of bin width 1024 over the block. -/
theorem b32_level (xb : Vec Ideal S128x32768 .f32) :
    IsLevel xb (k0_pay1 (k0_pay3 (View.ld xb r0_0)) (k0_pay4 (View.ld xb r0_1)) (k0_pay5 (View.ld xb r0_2)) (k0_pay6 (View.ld xb r0_3)) (k0_pay7 (View.ld xb r0_4)) (k0_pay8 (View.ld xb r0_5)) (k0_pay9 (View.ld xb r0_6)) (k0_pay10 (View.ld xb r0_7)) (k0_pay11 (View.ld xb r0_8)) (k0_pay13 (k0_pay12 (View.ld xb r0_9))) (k0_pay14 (View.ld xb r0_10)) (k0_pay15 (View.ld xb r0_11)) (k0_pay16 (View.ld xb r0_12)) (k0_pay17 (View.ld xb r0_13)) (k0_pay18 (View.ld xb r0_14)) (k0_pay19 (View.ld xb r0_15)) (k0_pay20 (View.ld xb r0_16)) (k0_pay21 (View.ld xb r0_17)) (k0_pay22 (View.ld xb r0_18)) (k0_pay24 (k0_pay23 (View.ld xb r0_19))) (k0_pay25 (View.ld xb r0_20)) (k0_pay26 (View.ld xb r0_21)) (k0_pay27 (View.ld xb r0_22)) (k0_pay28 (View.ld xb r0_23)) (k0_pay29 (View.ld xb r0_24)) (k0_pay30 (View.ld xb r0_25)) (k0_pay31 (View.ld xb r0_26)) (k0_pay32 (View.ld xb r0_27)) (k0_pay33 (View.ld xb r0_28)) (k0_pay34 (View.ld xb r0_29)) (View.ld xb r0_30) (View.ld xb r0_31)) 1024 := by
  intro r q c
  rw [b32_eq]
  rw [concatenate_ofFn_unit_apply (t := S128x32) (s₁ := S128x1) 1 (chunk xb)
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1
    rfl rfl (ix2 r q) q rfl (ix2 r (0 : Fin 1)) (fun b hb =>
    match b with
    | ⟨0, _⟩ => rfl
    | ⟨1, _⟩ => absurd rfl hb)]
  exact chunk_le_iff xb q r 0 c

/-- The five pairwise-maximum levels over a finest level, and the six side by side: the pyramid. -/
theorem pay2_pyramid (xb : Vec Ideal S128x32768 .f32) (b32 : FVec Ideal S128x32 .f32) (L32 : IsLevel xb b32 1024) :
    k0_pay2 b32 = pyramid xb := by
  have L16 : IsLevel xb _ 2048 :=
    IsLevel.pair (n := 16) (m := 32) rfl xb b32 1024 L32 shapeCasts_S128x32_S128x16x2 reduces_S128x16x2_S128x16 (.inl rfl) rfl
  have L8 : IsLevel xb _ 4096 :=
    IsLevel.pair (n := 8) (m := 16) rfl xb _ 2048 L16 shapeCasts_S128x16_S128x8x2 reduces_S128x8x2_S128x8 (.inl rfl) rfl
  have L4 : IsLevel xb _ 8192 :=
    IsLevel.pair (n := 4) (m := 8) rfl xb _ 4096 L8 shapeCasts_S128x8_S128x4x2 reduces_S128x4x2_S128x4 (.inl rfl) rfl
  have L2 : IsLevel xb _ 16384 :=
    IsLevel.pair (n := 2) (m := 4) rfl xb _ 8192 L4 shapeCasts_S128x4_S128x2x2 reduces_S128x2x2_S128x2 (.inl rfl) rfl
  have L1 : IsLevel xb _ 32768 :=
    IsLevel.pair (n := 1) (m := 2) rfl xb _ 16384 L2 shapeCasts_S128x2_S128x1x2 reduces_S128x1x2_S128x1 (.inl rfl) rfl
  unfold k0_pay2
  exact concat6_eq_pyramid xb _ _ _ _ _ _ concatenates_S128x1_S128x2_S128x4_S128x8_S128x16_S128x32_S128x63_d1 L1 L2 L4 L8 L16 L32

/-- THE BODY'S RESULT: the block it stores is the pyramid of its input block. -/
theorem out_eq_pyramid (xb : Vec Ideal S128x32768 .f32) : out0_1 xb = pyramid xb := by
  unfold out0_1
  rw [View.canon_unit_zero hz]
  exact pay2_pyramid xb _ (b32_level xb)

end Cert.KernelIdeal.Body

end
-- ==== Proof.KernelValue.lean ====
/-
  The kernel's result array, as one function of its argument array.

  The grid has 16 points; at point `t` the input window's block is rows `128·t … 128·t + 127` of the input, all its
  columns, and the output window's block is the same rows of the result, all 63 columns (`idx_facts`, decided over
  the grid). The body stores the pyramid of bin maxima of its input block; a row's bin maxima depend on that row
  only, so what point `t` writes back is block `t` of the pyramid of the WHOLE input (`flushed_eq`). The sixteen
  blocks cover the result array — row `i` lies in the block of point `i / 128` (`cover`) —, so after the run the
  result array is the pyramid of the input (`final_o`, `run`).
-/
import proofs.«142763_j23235773071814_1_alg».proof.Proof.Gen.KernelIdeal.Value
import proofs.«142763_j23235773071814_1_alg».proof.Proof.KernelBody

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Body
open Idealize.ShloMosaic.ValueIdx Cert.Pyramid

variable (m : (ℓ : Loc nD τ sig) → Buf (Elt Ideal) ℓ) (ρ : Dev nD → PrngReg)

-- the pyramid is used here through its lemmas only; it is never opened (its definition is a supremum over all
-- 32768 columns)
attribute [local irreducible] Cert.Pyramid.pyramid

/-- The input array as the region finds it. -/
abbrev xarr (c : Dev nD) : Vec Ideal S2048x32768 .f32 := V m c main_arg0

/-- The input window's block at point `t`. -/
abbrev xblk (c : Dev nD) (t : Fin cfg0.N) : Vec Ideal S128x32768 .f32 := iblk m c 0 t

/-- THE RESULT: the pyramid of bin maxima of the input array. -/
abbrev result (c : Dev nD) : Buf (Elt Ideal) ((c : Thread nD τ).loc main_v0) := pyramid (xarr m c)

/-- The printed index maps, decided over the grid: at point `t` both windows are at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the input block at point `t` is row `128·t + r` of the input array. -/
theorem xblk_apply (c : Dev nD) (t : Fin cfg0.N) (r : Fin 128) (w : Fin 32768) (r' : Fin 2048)
    (hr' : r'.val = t.val * 128 + r.val) : xblk m c t (ix2 r w) = xarr m c (ix2 r' w) := by
  obtain ⟨e0, e1, -, -⟩ := idx_facts t
  show iblk m c 0 t (ix2 r w) = V m c main_arg0 (ix2 r' w)
  unfold iblk
  rw [View.read_apply]
  show V m c main_arg0 _ = V m c main_arg0 _
  congr 1
  funext a
  apply Fin.ext
  match a with
  | ⟨0, _⟩ => show win0_0.index t 0 * 128 + 1 * r.val = r'.val; rw [e0, hr']; omega
  | ⟨1, _⟩ => show win0_0.index t 1 * 32768 + 1 * w.val = w.val; rw [e1]; omega

/-- The pyramid of a block of rows `128·tt + r` of an array is that block of rows of the array's pyramid. -/
theorem blk_pyramid (xb : Vec Ideal S128x32768 .f32) (x : Vec Ideal S2048x32768 .f32) (tt : ℕ)
    (hrows : ∀ (r : Fin 128) (w : Fin 32768) (r' : Fin 2048), r'.val = tt * 128 + r.val → xb (ix2 r w) = x (ix2 r' w))
    (y : S128x63.Idx) (i : S2048x63.Idx) (hi0 : (i 0).val = tt * 128 + (y 0).val) (hi1 : (i 1).val = (y 1).val) :
    pyramid xb y = pyramid x i :=
  calc pyramid xb y = pyramid xb (ix2 (y 0) (y 1)) := congrArg (pyramid xb) (eq_ix2 y)
    _ = pyramid x (ix2 (i 0) (y 1)) := pyramid_rows xb x (y 0) (i 0) (fun w => hrows (y 0) w (i 0) hi0) (y 1)
    _ = pyramid x i := by
        refine congrArg (pyramid x) (funext fun a => Fin.ext ?_)
        match a with
        | ⟨0, _⟩ => rfl
        | ⟨1, _⟩ => exact hi1.symm

/-- WHAT POINT `t` WRITES BACK is block `t` of the pyramid of the input array. -/
theorem flushed_eq (c : Dev nD) (t : Fin cfg0.N) :
    (dats m 0 c).flushed 1 t = ((cfg0.win 1).blk t).view.read (Elt Ideal) (result m c) := by
  rw [Value.flushed1, out_eq_pyramid]
  obtain ⟨-, -, e2, e3⟩ := idx_facts t
  funext y
  refine (blk_pyramid (xblk m c t) (xarr m c) t.val (fun r w r' h => xblk_apply m c t r w r' h)
    ((cfg0.win 1).xinj (grid0.coords t) y) (((cfg0.win 1).blk t).view.emb y) ?_ ?_).trans ?_
  · show win0_1.index t 0 * 128 + 1 * (y 0).val = t.val * 128 + (y 0).val
    rw [e2]; omega
  · show win0_1.index t 1 * 63 + 1 * (y 1).val = (y 1).val
    rw [e3]; omega
  · rfl

/-- Every index of the result array is in the block of the point its row falls to. -/
theorem cover (i : S2048x63.Idx) :
    ∃ t : Fin cfg0.N, (cfg0.win 1).flush t = true ∧ i ∈ ((cfg0.win 1).blk t).view.set := by
  have hi0 : (i 0).val < 2048 := (i 0).isLt
  have hi1 : (i 1).val < 63 := (i 1).isLt
  have hN : grid0.N = 16 := N_0
  have hlt : (i 0).val / 128 < cfg0.N := by show (i 0).val / 128 < grid0.N; rw [hN]; omega
  obtain ⟨-, -, e2, e3⟩ := idx_facts ⟨(i 0).val / 128, hlt⟩
  refine ⟨⟨(i 0).val / 128, hlt⟩, flush0_1 _, ?_⟩
  show i ∈ ((View.whole main_v0).slice (win0_1.rect ⟨(i 0).val / 128, hlt⟩)).set
  rw [View.set_slice_whole, Rect.mem_set_unit]
  intro a
  match a with
  | ⟨0, _⟩ =>
    show win0_1.index ⟨(i 0).val / 128, hlt⟩ 0 * 128 ≤ (i 0).val
      ∧ (i 0).val < win0_1.index ⟨(i 0).val / 128, hlt⟩ 0 * 128 + 128
    rw [e2]
    show (i 0).val / 128 * 128 ≤ (i 0).val ∧ (i 0).val < (i 0).val / 128 * 128 + 128
    omega
  | ⟨1, _⟩ =>
    show win0_1.index ⟨(i 0).val / 128, hlt⟩ 1 * 63 ≤ (i 1).val
      ∧ (i 1).val < win0_1.index ⟨(i 0).val / 128, hlt⟩ 1 * 63 + 63
    rw [e3]
    omega

/-- So the result array ends holding the pyramid of the input array. -/
theorem final_o (c : Dev nD) : (dats m 0 c).arrAt 1 cfg0.N = result m c :=
  (dats m 0 c).arrAt_eq_of_cover 1 (result m c) (fun t _ => flushed_eq m c t) cover

/-- The run, read: the result array at the pyramid of the argument, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final_o m c), (h c).2⟩) (Value.run_blocks m ρ)

end Cert.KernelIdeal.Hand

end
-- ==== Proof.LibNary6.lean ====
/-
  A concatenation of six operands is one operation over a literal family of six buffers, its function taking the
  family of the operands' contents. Its result at its own buffer is that function at the six contents; stated here
  for a function `g` of six SEPARATE arguments that the operation's function agrees with, the contents appear each at
  its own literal buffer, typed by that buffer, and not under a binder ranging over `Fin 6`: the contents of every
  operand can then in turn be read as the result of the operation that wrote it. (Under the binder the buffer
  `![a₀, …, a₅] k` is not a literal buffer, and nothing more can be said of what it holds.)
  General in the signature, the value family, the six buffers and the function.
-/
import Idealize.ShloMosaic.Lib.StableHlo.Run

noncomputable section

namespace Cert.LibNary6

open Idealize.ShloMosaic Idealize.ShloMosaic.StableHlo

variable {τ : Topo} {sig : RefSig} {Val : EltTy → Type}
variable {a₀ a₁ a₂ a₃ a₄ a₅ y : Ref sig .tc}

/-- The result of an operation over the literal family `![a₀, a₁, a₂, a₃, a₄, a₅]`, at its own result buffer, when its
    function `f` of the family is a function `g` of the six members: `g` at the six operands' contents, each named at
    its own buffer. -/
theorem nary6_result_of
    (f : ((k : Fin 6) → ((![a₀, a₁, a₂, a₃, a₄, a₅] : Fin 6 → Ref sig .tc) k).ty.Contents Val) → y.ty.Contents Val) (hxs hy)
    (F : Valuation τ sig Val)
    (g : a₀.ty.Contents Val → a₁.ty.Contents Val → a₂.ty.Contents Val → a₃.ty.Contents Val → a₄.ty.Contents Val →
      a₅.ty.Contents Val → y.ty.Contents Val)
    (hg : ∀ u, f u = g (u 0) (u 1) (u 2) (u 3) (u 4) (u 5)) :
    (nary (τ := τ) ![a₀, a₁, a₂, a₃, a₄, a₅] y f hxs hy).result F (Proc.devRef .tc y)
      = g (F (Proc.devRef .tc a₀)) (F (Proc.devRef .tc a₁)) (F (Proc.devRef .tc a₂)) (F (Proc.devRef .tc a₃))
          (F (Proc.devRef .tc a₄)) (F (Proc.devRef .tc a₅)) := by
  rw [nary_result, hg]
  rfl

end Cert.LibNary6

end
-- ==== Proof.HostLevels.lean ====
/-
  The levels as the host computes them.

  The level of one bin is the whole row's maximum, kept as a column (`hostTop_level`). A level of `p = p1 + 1` bins of
  width `W` is computed in two parts laid side by side: the first `p1` bins from the first `p1·W` columns, recast as
  `p1` rows of `W` and reduced along the last axis — entry `(r, q, k)` of the recast array is entry `(r, q·W + k)` of
  the slice, because both have row-major position `(r·p1 + q)·W + k` —, and the last bin from the remaining columns
  `[p1·W, p1·W + W)`, reduced along the columns and kept as a column (`hostLevel`). Either part's entry bounds what its
  bin bounds, so the two side by side are the level of width `W`. (Here `p1·W + W` is the whole width, 32768: the last
  bin is as wide as the others.)
-/
import proofs.«142763_j23235773071814_1_alg».proof.Proof.Pyramid

noncomputable section

namespace Cert.HostLevels

open Idealize.ShloMosaic Idealize.ShloMosaic.ValueIdx Cert.MaxLaws Cert.Levels

/-- Entries at indices with equal coordinates are equal. -/
theorem at_eq {R W : ℕ} (x : (⟨2, ![R, W]⟩ : Shape).Idx → EReal) (i i' : (⟨2, ![R, W]⟩ : Shape).Idx)
    (h0 : (i 0).val = (i' 0).val) (h1 : (i 1).val = (i' 1).val) : x i = x i' :=
  congrArg x (funext fun a => Fin.ext (by
    match a with
    | ⟨0, _⟩ => exact h0
    | ⟨1, _⟩ => exact h1))

/-- The level of ONE bin: the row's maximum over all its columns, as a column. -/
theorem hostTop_level {R W : ℕ} (x : (⟨2, ![R, W]⟩ : Shape).Idx → Ideal .f32)
    (hrt : (⟨2, ![R, W]⟩ : Shape).ReducesTo [1] ⟨1, ![R]⟩) (hr : (⟨2, ![R, W]⟩ : Shape).Reduces [1] ⟨1, ![R]⟩)
    (hu : 0 < (⟨0, ![]⟩ : Shape).numel) (hb : (⟨1, ![R]⟩ : Shape).BroadcastsInDim ⟨2, ![R, 1]⟩ ![0]) :
    IsLevel x (broadcastInDim ⟨2, ![R, 1]⟩ ![0] hb
      (Host.reduce (FloatOps.maximumf (F := Ideal) (φ := .f32)) x (constant (F := Ideal) ⟨0, ![]⟩ .f32 0xFF800000#32) hrt hu)) W := by
  intro r q c
  have hq : q.val = 0 := by have := q.isLt; omega
  rw [broadcastInDim_apply ![0] hb _ (ix2 r q) (ix1 r) (fun a =>
    match a with
    | ⟨0, _⟩ => by
      show r.val = if R = 1 then 0 else r.val
      split_ifs with h1
      · have := r.isLt; omega
      · rfl)]
  rw [hostReduce_max_le_iff x hrt hr hu (ix1 r) c]
  unfold Bounds
  constructor
  · intro h w _ _
    exact le_of_eq_of_le (at_eq x (ix2 r w) (hr.lift (ix1 r) w) rfl rfl) (h w)
  · intro h k
    have hk : k.val < W := k.isLt
    exact le_of_eq_of_le (at_eq x (hr.lift (ix1 r) k) (ix2 r ⟨k.val, hk⟩) rfl rfl) (h ⟨k.val, hk⟩ (by rw [hq]; show 0 * W ≤ k.val; omega)
      (by rw [hq]; show k.val < 0 * W + W; omega))

/-- A level of `p1 + 1` bins of width `W`: `p1` bins off the recast first `p1·W` columns, the last off the rest. -/
theorem hostLevel {R p1 p W NW : ℕ} (hp : p = p1 + 1) (hNW : NW = p1 * W) (hW : NW + W = 32768)
    (x : (⟨2, ![R, 32768]⟩ : Shape).Idx → Ideal .f32)
    (hsl : (⟨2, ![R, 32768]⟩ : Shape).Slices ![0, 0] ⟨2, ![R, NW]⟩)
    (hsc : (⟨2, ![R, NW]⟩ : Shape).ShapeCasts ⟨3, ![R, p1, W]⟩)
    (hrt : (⟨3, ![R, p1, W]⟩ : Shape).ReducesTo [2] ⟨2, ![R, p1]⟩) (hr : (⟨3, ![R, p1, W]⟩ : Shape).Reduces [2] ⟨2, ![R, p1]⟩)
    (hu : 0 < (⟨0, ![]⟩ : Shape).numel)
    (hsl' : (⟨2, ![R, 32768]⟩ : Shape).Slices ![0, NW] ⟨2, ![R, W]⟩)
    (hrt' : (⟨2, ![R, W]⟩ : Shape).ReducesTo [1] ⟨1, ![R]⟩) (hr' : (⟨2, ![R, W]⟩ : Shape).Reduces [1] ⟨1, ![R]⟩)
    (hb : (⟨1, ![R]⟩ : Shape).BroadcastsInDim ⟨2, ![R, 1]⟩ ![0])
    (hcat : Shape.Concatenates [(⟨2, ![R, p1]⟩ : Shape), ⟨2, ![R, 1]⟩] ⟨2, ![R, p]⟩ 1) :
    IsLevel x (concatenate ⟨2, ![R, p]⟩ 1
      [⟨⟨2, ![R, p1]⟩, Host.reduce (FloatOps.maximumf (F := Ideal) (φ := .f32))
          (shapeCast ⟨3, ![R, p1, W]⟩ (extractStridedSlice ⟨2, ![R, NW]⟩ ![0, 0] x hsl) hsc)
          (constant (F := Ideal) ⟨0, ![]⟩ .f32 0xFF800000#32) hrt hu⟩,
       ⟨⟨2, ![R, 1]⟩, broadcastInDim ⟨2, ![R, 1]⟩ ![0] hb
          (Host.reduce (FloatOps.maximumf (F := Ideal) (φ := .f32)) (extractStridedSlice ⟨2, ![R, W]⟩ ![0, NW] x hsl')
            (constant (F := Ideal) ⟨0, ![]⟩ .f32 0xFF800000#32) hrt' hu)⟩] hcat) W := by
  intro r q c
  have hqp : q.val < p := q.isLt
  by_cases hq : q.val < p1
  · -- one of the first `p1` bins
    have hbin : (q.val + 1) * W ≤ p1 * W := Nat.mul_le_mul_right W hq
    have hbin' : (q.val + 1) * W = q.val * W + W := by ring
    rw [concatenate_pair_apply_left 1 _ _ hcat (ix2 r q) rfl (ix2 r ⟨q.val, hq⟩) (fun b =>
      match b with
      | ⟨0, _⟩ => rfl
      | ⟨1, _⟩ => rfl)]
    rw [hostReduce_max_le_iff _ hrt hr hu (ix2 r ⟨q.val, hq⟩) c]
    have key : ∀ (k : ℕ) (hk : k < W),
        shapeCast ⟨3, ![R, p1, W]⟩ (extractStridedSlice ⟨2, ![R, NW]⟩ ![0, 0] x hsl) hsc (hr.lift (ix2 r ⟨q.val, hq⟩) ⟨k, hk⟩)
          = x (ix2 r ⟨q.val * W + k, by omega⟩) := by
      intro k hk
      rw [shapeCast_apply _ hsc _ (ix2 r ⟨q.val * W + k, by omega⟩) (by
        rw [Shape.rowMajor_val_two, Shape.rowMajor_val_three]
        show r.val * NW + (q.val * W + k) = (r.val * p1 + q.val) * W + k
        subst hNW
        ring)]
      exact extractStridedSlice_apply ![0, 0] x hsl _ (ix2 r ⟨q.val * W + k, by omega⟩) (fun a =>
        match a with
        | ⟨0, _⟩ => by show r.val = 0 + r.val; omega
        | ⟨1, _⟩ => by show q.val * W + k = 0 + (q.val * W + k); omega)
    unfold Bounds
    constructor
    · intro h w hlo hhi
      have hk : w.val - q.val * W < W := by omega
      refine le_of_eq_of_le ?_ (h ⟨w.val - q.val * W, hk⟩)
      rw [key _ hk]
      exact at_eq x _ _ rfl (by show w.val = q.val * W + (w.val - q.val * W); omega)
    · intro h k
      have hk : k.val < W := k.isLt
      refine le_of_eq_of_le (key k.val hk) (h ⟨q.val * W + k.val, by omega⟩ ?_ ?_)
      · show q.val * W ≤ q.val * W + k.val; omega
      · show q.val * W + k.val < q.val * W + W; omega
  · -- the last bin
    have hq' : q.val = p1 := by omega
    rw [concatenate_pair_apply_right 1 _ _ hcat (ix2 r q) rfl rfl (ix2 r (0 : Fin 1)) (fun b hb =>
      match b with
      | ⟨0, _⟩ => rfl
      | ⟨1, _⟩ => absurd rfl hb) (by show 0 + p1 = q.val; omega)]
    rw [broadcastInDim_apply ![0] hb _ (ix2 r (0 : Fin 1)) (ix1 r) (fun a =>
      match a with
      | ⟨0, _⟩ => by
        show r.val = if R = 1 then 0 else r.val
        split_ifs with h1
        · have := r.isLt; omega
        · rfl)]
    rw [hostReduce_max_le_iff _ hrt' hr' hu (ix1 r) c]
    have key : ∀ (k : ℕ) (hk : k < W),
        extractStridedSlice ⟨2, ![R, W]⟩ ![0, NW] x hsl' (hr'.lift (ix1 r) ⟨k, hk⟩) = x (ix2 r ⟨NW + k, by omega⟩) := by
      intro k hk
      exact extractStridedSlice_apply ![0, NW] x hsl' _ (ix2 r ⟨NW + k, by omega⟩) (fun a =>
        match a with
        | ⟨0, _⟩ => by show r.val = 0 + r.val; omega
        | ⟨1, _⟩ => by show NW + k = NW + k; rfl)
    have hlo : q.val * W = NW := by rw [hq', hNW]
    unfold Bounds
    constructor
    · intro h w hl hh
      have hk : w.val - NW < W := by omega
      refine le_of_eq_of_le ?_ (h ⟨w.val - NW, hk⟩)
      rw [key _ hk]
      exact at_eq x _ _ rfl (by show w.val = NW + (w.val - NW); omega)
    · intro h k
      have hk : k.val < W := k.isLt
      refine le_of_eq_of_le (key k.val hk) (h ⟨NW + k.val, by omega⟩ ?_ ?_)
      · show q.val * W ≤ NW + k.val; omega
      · show NW + k.val < q.val * W + W; omega

end Cert.HostLevels

end
-- ==== Proof.RefValue.lean ====
/-
  The reference's result, as the same function of its argument array.

  For each number of bins `p` in 1, 2, 4, 8, 16, 32 the reference takes the first `p - 1` bins of width `32768 / p` from
  the first columns, recast as bins and reduced, and the last bin from the remaining columns, which — every `p`
  dividing 32768 — is as wide as the others; for `p = 1` there is only the last bin, the whole row. Each of the six
  arrays is the level of its width (the host-level lemmas, at the literal sizes), and the six side by side, coarsest
  first, are the pyramid of bin maxima of the argument: the function the kernel's result array holds.
-/
import proofs.«142763_j23235773071814_1_alg».proof.Proof.RefRun
import proofs.«142763_j23235773071814_1_alg».proof.Proof.HostLevels

noncomputable section

namespace Cert.ReferenceIdeal.RefValue

open Cert.ReferenceIdeal Cert.ReferenceIdeal.Gen Idealize.ShloMosaic Idealize.ShloMosaic.ValueIdx
open Cert.MaxLaws Cert.Levels Cert.Pyramid Cert.HostLevels

/-- The term the reference's run ends at is the pyramid of its argument. -/
theorem result_eq (x : (⟨S2048x32768, .f32⟩ : BufTy).Contents (Elt Ideal)) :
    concatenate S2048x63 1 [⟨S2048x1, (broadcastInDim S2048x1 ![0] bcast_S2048_S2048x1_0 (Host.reduce (FloatOps.maximumf (F := Ideal)) x (constant (F := Ideal) S_ .f32 0xFF800000#32) reducesTo_S2048x32768_S2048_d1 h_S_))⟩, ⟨S2048x2, (concatenate S2048x2 1 [⟨S2048x1, (Host.reduce (FloatOps.maximumf (F := Ideal)) (shapeCast _ (extractStridedSlice S2048x16384 ![0, 0] x slices_S2048x32768_S2048x16384_0_0) shapeCasts_S2048x16384_S2048x1x16384) (constant (F := Ideal) S_ .f32 0xFF800000#32) reducesTo_S2048x1x16384_S2048x1_d2 h_S_)⟩, ⟨S2048x1, (broadcastInDim S2048x1 ![0] bcast_S2048_S2048x1_0 (Host.reduce (FloatOps.maximumf (F := Ideal)) (extractStridedSlice S2048x16384 ![0, 16384] x slices_S2048x32768_S2048x16384_0_16384) (constant (F := Ideal) S_ .f32 0xFF800000#32) reducesTo_S2048x16384_S2048_d1 h_S_))⟩] concatenates_S2048x1_S2048x1_S2048x2_d1)⟩, ⟨S2048x4, (concatenate S2048x4 1 [⟨S2048x3, (Host.reduce (FloatOps.maximumf (F := Ideal)) (shapeCast _ (extractStridedSlice S2048x24576 ![0, 0] x slices_S2048x32768_S2048x24576_0_0) shapeCasts_S2048x24576_S2048x3x8192) (constant (F := Ideal) S_ .f32 0xFF800000#32) reducesTo_S2048x3x8192_S2048x3_d2 h_S_)⟩, ⟨S2048x1, (broadcastInDim S2048x1 ![0] bcast_S2048_S2048x1_0 (Host.reduce (FloatOps.maximumf (F := Ideal)) (extractStridedSlice S2048x8192 ![0, 24576] x slices_S2048x32768_S2048x8192_0_24576) (constant (F := Ideal) S_ .f32 0xFF800000#32) reducesTo_S2048x8192_S2048_d1 h_S_))⟩] concatenates_S2048x3_S2048x1_S2048x4_d1)⟩, ⟨S2048x8, (concatenate S2048x8 1 [⟨S2048x7, (Host.reduce (FloatOps.maximumf (F := Ideal)) (shapeCast _ (extractStridedSlice S2048x28672 ![0, 0] x slices_S2048x32768_S2048x28672_0_0) shapeCasts_S2048x28672_S2048x7x4096) (constant (F := Ideal) S_ .f32 0xFF800000#32) reducesTo_S2048x7x4096_S2048x7_d2 h_S_)⟩, ⟨S2048x1, (broadcastInDim S2048x1 ![0] bcast_S2048_S2048x1_0 (Host.reduce (FloatOps.maximumf (F := Ideal)) (extractStridedSlice S2048x4096 ![0, 28672] x slices_S2048x32768_S2048x4096_0_28672) (constant (F := Ideal) S_ .f32 0xFF800000#32) reducesTo_S2048x4096_S2048_d1 h_S_))⟩] concatenates_S2048x7_S2048x1_S2048x8_d1)⟩, ⟨S2048x16, (concatenate S2048x16 1 [⟨S2048x15, (Host.reduce (FloatOps.maximumf (F := Ideal)) (shapeCast _ (extractStridedSlice S2048x30720 ![0, 0] x slices_S2048x32768_S2048x30720_0_0) shapeCasts_S2048x30720_S2048x15x2048) (constant (F := Ideal) S_ .f32 0xFF800000#32) reducesTo_S2048x15x2048_S2048x15_d2 h_S_)⟩, ⟨S2048x1, (broadcastInDim S2048x1 ![0] bcast_S2048_S2048x1_0 (Host.reduce (FloatOps.maximumf (F := Ideal)) (extractStridedSlice S2048x2048 ![0, 30720] x slices_S2048x32768_S2048x2048_0_30720) (constant (F := Ideal) S_ .f32 0xFF800000#32) reducesTo_S2048x2048_S2048_d1 h_S_))⟩] concatenates_S2048x15_S2048x1_S2048x16_d1)⟩, ⟨S2048x32, (concatenate S2048x32 1 [⟨S2048x31, (Host.reduce (FloatOps.maximumf (F := Ideal)) (shapeCast _ (extractStridedSlice S2048x31744 ![0, 0] x slices_S2048x32768_S2048x31744_0_0) shapeCasts_S2048x31744_S2048x31x1024) (constant (F := Ideal) S_ .f32 0xFF800000#32) reducesTo_S2048x31x1024_S2048x31_d2 h_S_)⟩, ⟨S2048x1, (broadcastInDim S2048x1 ![0] bcast_S2048_S2048x1_0 (Host.reduce (FloatOps.maximumf (F := Ideal)) (extractStridedSlice S2048x1024 ![0, 31744] x slices_S2048x32768_S2048x1024_0_31744) (constant (F := Ideal) S_ .f32 0xFF800000#32) reducesTo_S2048x1024_S2048_d1 h_S_))⟩] concatenates_S2048x31_S2048x1_S2048x32_d1)⟩] concatenates_S2048x1_S2048x2_S2048x4_S2048x8_S2048x16_S2048x32_S2048x63_d1
      = pyramid x := by
  have L1 : IsLevel x _ 32768 :=
    hostTop_level (R := 2048) (W := 32768) x reducesTo_S2048x32768_S2048_d1 (by decide) h_S_ bcast_S2048_S2048x1_0
  have L2 : IsLevel x _ 16384 :=
    hostLevel (R := 2048) (p1 := 1) (p := 2) (W := 16384) (NW := 16384) rfl rfl rfl x
      slices_S2048x32768_S2048x16384_0_0 shapeCasts_S2048x16384_S2048x1x16384 reducesTo_S2048x1x16384_S2048x1_d2 (by decide) h_S_
      slices_S2048x32768_S2048x16384_0_16384 reducesTo_S2048x16384_S2048_d1 (by decide) bcast_S2048_S2048x1_0
      concatenates_S2048x1_S2048x1_S2048x2_d1
  have L4 : IsLevel x _ 8192 :=
    hostLevel (R := 2048) (p1 := 3) (p := 4) (W := 8192) (NW := 24576) rfl rfl rfl x
      slices_S2048x32768_S2048x24576_0_0 shapeCasts_S2048x24576_S2048x3x8192 reducesTo_S2048x3x8192_S2048x3_d2 (by decide) h_S_
      slices_S2048x32768_S2048x8192_0_24576 reducesTo_S2048x8192_S2048_d1 (by decide) bcast_S2048_S2048x1_0
      concatenates_S2048x3_S2048x1_S2048x4_d1
  have L8 : IsLevel x _ 4096 :=
    hostLevel (R := 2048) (p1 := 7) (p := 8) (W := 4096) (NW := 28672) rfl rfl rfl x
      slices_S2048x32768_S2048x28672_0_0 shapeCasts_S2048x28672_S2048x7x4096 reducesTo_S2048x7x4096_S2048x7_d2 (by decide) h_S_
      slices_S2048x32768_S2048x4096_0_28672 reducesTo_S2048x4096_S2048_d1 (by decide) bcast_S2048_S2048x1_0
      concatenates_S2048x7_S2048x1_S2048x8_d1
  have L16 : IsLevel x _ 2048 :=
    hostLevel (R := 2048) (p1 := 15) (p := 16) (W := 2048) (NW := 30720) rfl rfl rfl x
      slices_S2048x32768_S2048x30720_0_0 shapeCasts_S2048x30720_S2048x15x2048 reducesTo_S2048x15x2048_S2048x15_d2 (by decide) h_S_
      slices_S2048x32768_S2048x2048_0_30720 reducesTo_S2048x2048_S2048_d1 (by decide) bcast_S2048_S2048x1_0
      concatenates_S2048x15_S2048x1_S2048x16_d1
  have L32 : IsLevel x _ 1024 :=
    hostLevel (R := 2048) (p1 := 31) (p := 32) (W := 1024) (NW := 31744) rfl rfl rfl x
      slices_S2048x32768_S2048x31744_0_0 shapeCasts_S2048x31744_S2048x31x1024 reducesTo_S2048x31x1024_S2048x31_d2 (by decide) h_S_
      slices_S2048x32768_S2048x1024_0_31744 reducesTo_S2048x1024_S2048_d1 (by decide) bcast_S2048_S2048x1_0
      concatenates_S2048x31_S2048x1_S2048x32_d1
  exact concat6_eq_pyramid x _ _ _ _ _ _ concatenates_S2048x1_S2048x2_S2048x4_S2048x8_S2048x16_S2048x32_S2048x63_d1
    L1 L2 L4 L8 L16 L32

end Cert.ReferenceIdeal.RefValue

end
-- ==== Proof.lean ====
/- The proof of `Cert.Claim` (proofs.«142763_j23235773071814_1_alg».proof.Defs).

   The kernel pools each row of a 2048 × 32768 array into 63 numbers: for p = 1, 2, 4, 8, 16, 32 the maxima of the row
   over its p bins of 32768 / p columns, the six levels side by side, coarsest first. It reads a block of 128 rows once,
   takes the 32 finest bins' maxima directly and every coarser bin's maximum as the maximum of the two bins of the next
   finer level that it is the union of. The reference takes every bin's maximum directly off the row. On the extended
   reals both are ONE function of the argument, the pyramid of bin maxima (Proof/Pyramid.lean): a value is the maximum
   of a row over a range of columns exactly when it has that range's upper bounds, two adjacent ranges' upper bounds
   are their union's, and `-∞`, from which every reduction starts, bounds nothing (Proof/MaxLaws.lean). No finiteness of
   the argument is used: the law holds at the infinities too.

   Proof/Levels.lean reads a window's maxima and a pairwise maximum at an index; Proof/KernelBody.lean shows the body's
   stored block is the pyramid of its input block, Proof/KernelValue.lean that the result array after the run is the
   pyramid of the argument; Proof/HostLevels.lean and Proof/RefValue.lean that the reference's result is the same
   pyramid. Here: the three frames (the programs' runs with the results dropped), `preserves` (the idealization
   rewrote nothing: the claim is `True`), and `algebraic` (the two runs, both results at the pyramid of arguments that
   agree). -/
import proofs.«142763_j23235773071814_1_alg».proof.Defs
import proofs.«142763_j23235773071814_1_alg».proof.Proof.Gen.Kernel
import proofs.«142763_j23235773071814_1_alg».proof.Proof.Gen.Kernel.Skeleton
import proofs.«142763_j23235773071814_1_alg».proof.Proof.Gen.Kernel.Launch
import proofs.«142763_j23235773071814_1_alg».proof.Proof.Gen.Kernel.Points
import proofs.«142763_j23235773071814_1_alg».proof.Proof.Gen.Kernel.Frame
import proofs.«142763_j23235773071814_1_alg».proof.Proof.Gen.KernelIdeal
import proofs.«142763_j23235773071814_1_alg».proof.Proof.Gen.KernelIdeal.Skeleton
import proofs.«142763_j23235773071814_1_alg».proof.Proof.Gen.KernelIdeal.Launch
import proofs.«142763_j23235773071814_1_alg».proof.Proof.Gen.KernelIdeal.Points
import proofs.«142763_j23235773071814_1_alg».proof.Proof.Gen.KernelIdeal.Frame
import proofs.«142763_j23235773071814_1_alg».proof.Proof.Gen.ReferenceIdeal
import proofs.«142763_j23235773071814_1_alg».proof.Proof.Gen.Pre_finite_inputs
import proofs.«142763_j23235773071814_1_alg».proof.Proof.Gen.KernelIdeal.Value
import proofs.«142763_j23235773071814_1_alg».proof.Proof.KernelValue
import proofs.«142763_j23235773071814_1_alg».proof.Proof.RefValue
import Idealize.ShloMosaic.Adequacy
import Idealize.ShloMosaic.Init

noncomputable section

namespace Cert.Proof

open Idealize.ShloMosaic Idealize.SL.Sem Cert.Pyramid

/-- The kernel as printed runs, and leaves its argument as it was. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference runs: its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From arguments that agree, the kernel's result array ends at the pyramid of bin maxima of its argument (the value
    leg over the body's block) and the reference's at the pyramid of its own (its run, read level by level): one
    function of one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq]
  exact congrArg (pyramid (R := 2048)) (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
